-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S640000x128 : Shape := ⟨2, ![640000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S128x128 .f32) (main_arg7 : FVec F S128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_v33

def fn {F : FTy → Type} [FloatOps F] (main_arg0 : FVec F S40000x128 .f32) (main_arg1 : FVec F S640000x128 .f32) (main_arg2 : IVec S640000 32) (main_arg3 : IVec S640000 32) (main_arg4 : FVec F S128x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S40000x128 : Shape := ⟨2, ![40000, 128]⟩
abbrev S640000x128 : Shape := ⟨2, ![640000, 128]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S1x128 : Shape := ⟨2, ![1, 128]⟩
abbrev S4000x128 : Shape := ⟨2, ![4000, 128]⟩
abbrev S8000x128 : Shape := ⟨2, ![8000, 128]⟩

abbrev nBuf : Space → Nat
  | .hbm => 43
  | .vmem => 16
  | .smem => 0
  | _ => 0

abbrev bufTy : (tb : Table) → Fin (tcTables nBuf tb) → BufTy
  | .hbm, ⟨0, _⟩ => ⟨S40000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S640000x128, .f32⟩
  | .hbm, ⟨19, _⟩ => ⟨S640000x128, .f32⟩
  | .hbm, ⟨20, _⟩ => ⟨S_, .f32⟩
  | .hbm, ⟨21, _⟩ => ⟨S40000x128, .f32⟩
  | .hbm, ⟨22, _⟩ => ⟨S640000x1, .i32⟩
  | .hbm, ⟨23, _⟩ => ⟨S40000x128, .f32⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x128, .f32⟩
  | .hbm, ⟨33, _⟩ => ⟨S640000x128, .f32⟩
  | .hbm, ⟨34, _⟩ => ⟨S_, .f32⟩
  | .hbm, ⟨35, _⟩ => ⟨S40000x128, .f32⟩
  | .hbm, ⟨36, _⟩ => ⟨S640000x1, .i32⟩
  | .hbm, ⟨37, _⟩ => ⟨S40000x128, .f32⟩
  | .hbm, ⟨38, _⟩ => ⟨S1x128, .f32⟩
  | .hbm, ⟨39, _⟩ => ⟨S1x128, .f32⟩
  | .hbm, ⟨40, _⟩ => ⟨S40000x128, .f32⟩
  | .hbm, ⟨41, _⟩ => ⟨S1x128, .f32⟩
  | .hbm, ⟨42, _⟩ => ⟨S640000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S8000x128, .f32⟩
  | .local _ .vmem, ⟨11, _⟩ => ⟨S8000x128, .f32⟩
  | .local _ .vmem, ⟨12, _⟩ => ⟨S128x128, .f32⟩
  | .local _ .vmem, ⟨13, _⟩ => ⟨S1x128, .f32⟩
  | .local _ .vmem, ⟨14, _⟩ => ⟨S8000x128, .f32⟩
  | .local _ .vmem, ⟨15, _⟩ => ⟨S8000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S8000x128_S8000x128_0_0 : ∀ a, (![0, 0] : Fin 2 → Nat) a + S8000x128.size a ≤ S8000x128.size a
  h_S8000x128 : 0 < S8000x128.numel
  broadcasts_S1x128_S8000x128 : S1x128.Broadcasts S8000x128
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S4000x128_S128x128_S4000x128_1_0_0_1_n_n_wf : DotDims.WF S4000x128 S128x128 S4000x128 [1] [0] [0] [1] [] []
  dot_S8000x128_S128x128_S8000x128_1_0_0_1_n_n_wf : DotDims.WF S8000x128 S128x128 S8000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S40000x128.size a
  hwx0_0 : ∀ i : grid0.Coords, EltTy.bits .f32 = 32 ∨ (Rect.block (s := S40000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S40000x128.size a
  hwx0_1 : ∀ i : grid0.Coords, EltTy.bits .f32 = 32 ∨ (Rect.block (s := S40000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S40000x128.size a
  hwx0_6 : ∀ i : grid0.Coords, EltTy.bits .f32 = 32 ∨ (Rect.block (s := S40000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S640000x128.size a
  hwx1_0 : ∀ i : grid1.Coords, EltTy.bits .f32 = 32 ∨ (Rect.block (s := S640000x128) S8000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x128.size a ≤ S640000x128.size a
  hwx1_3 : ∀ i : grid1.Coords, EltTy.bits .f32 = 32 ∨ (Rect.block (s := S640000x128) S8000x128.size (cc1_transform_3 i) (hinb1_3 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf

abbrev win0_0 : Pipeline.Window sig grid0 :=
  Pipeline.Window.ofSpec (Memref.whole main_v10) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S8000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S40000x128 : Shape := ⟨2, ![40000, 128]⟩
abbrev S640000x128 : Shape := ⟨2, ![640000, 128]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S1x128 : Shape := ⟨2, ![1, 128]⟩

abbrev nBuf : Space → Nat
  | .hbm => 54
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S640000x128, .f32⟩
  | .hbm, ⟨19, _⟩ => ⟨S640000x128, .f32⟩
  | .hbm, ⟨20, _⟩ => ⟨S_, .f32⟩
  | .hbm, ⟨21, _⟩ => ⟨S40000x128, .f32⟩
  | .hbm, ⟨22, _⟩ => ⟨S640000x1, .i32⟩
  | .hbm, ⟨23, _⟩ => ⟨S40000x128, .f32⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x128, .f32⟩
  | .hbm, ⟨33, _⟩ => ⟨S640000x128, .f32⟩
  | .hbm, ⟨34, _⟩ => ⟨S_, .f32⟩
  | .hbm, ⟨35, _⟩ => ⟨S40000x128, .f32⟩
  | .hbm, ⟨36, _⟩ => ⟨S640000x1, .i32⟩
  | .hbm, ⟨37, _⟩ => ⟨S40000x128, .f32⟩
  | .hbm, ⟨38, _⟩ => ⟨S128x128, .f32⟩
  | .hbm, ⟨39, _⟩ => ⟨S40000x128, .f32⟩
  | .hbm, ⟨40, _⟩ => ⟨S1x128, .f32⟩
  | .hbm, ⟨41, _⟩ => ⟨S40000x128, .f32⟩
  | .hbm, ⟨42, _⟩ => ⟨S40000x128, .f32⟩
  | .hbm, ⟨43, _⟩ => ⟨S128x128, .f32⟩
  | .hbm, ⟨44, _⟩ => ⟨S40000x128, .f32⟩
  | .hbm, ⟨45, _⟩ => ⟨S40000x128, .f32⟩
  | .hbm, ⟨46, _⟩ => ⟨S1x128, .f32⟩
  | .hbm, ⟨47, _⟩ => ⟨S40000x128, .f32⟩
  | .hbm, ⟨48, _⟩ => ⟨S40000x128, .f32⟩
  | .hbm, ⟨49, _⟩ => ⟨S128x128, .f32⟩
  | .hbm, ⟨50, _⟩ => ⟨S640000x128, .f32⟩
  | .hbm, ⟨51, _⟩ => ⟨S1x128, .f32⟩
  | .hbm, ⟨52, _⟩ => ⟨S640000x128, .f32⟩
  | .hbm, ⟨53, _⟩ => ⟨S640000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  transposes_S128x128_S128x128_1_0 : S128x128.Transposes [1, 0] S128x128
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S1x128_S640000x128_0_1 : S1x128.BroadcastsInDim S640000x128 (![0, 1] : Fin 2 → Fin S640000x128.rank)
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S40000x128_S128x128_S40000x128_1_0_0_1_n_n_wf : DotDims.WF S40000x128 S128x128 S40000x128 [1] [0] [0] [1] [] []
  dot_S640000x128_S128x128_S640000x128_1_0_0_1_n_n_wf : DotDims.WF S640000x128 S128x128 S640000x128 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf

class Facts : Prop extends Facts₀ where

variable [Facts]
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.LibLayout.lean ====
/-
  A row vector broadcast along the rows, read at an entry (a general lemma: nothing here depends on a program).

  A vector of B entries, shape-cast to one row [1, B] and broadcast to A rows [A, B], holds at (p, q) the vector's
  entry q.
-/
import Idealize.ShloMosaic.Lib.ValueIdx
import Idealize.ShloMosaic.Lib.Pipeline.Value

noncomputable section

namespace Cert.Lib.Layout

open Idealize.ShloMosaic Idealize.ShloMosaic.ValueIdx

/-- The one row [1, B] of a vector, at (0, q), is the vector at q. -/
theorem rowCast_apply {α : Type} {B : Nat} (v : (⟨1, ![B]⟩ : Shape).Idx → α)
    (h1 : (⟨1, ![B]⟩ : Shape).ShapeCasts ⟨2, ![1, B]⟩) (z : Fin 1) (q : Fin B) :
    shapeCast ⟨2, ![1, B]⟩ v h1 (ix2 z q) = v (ix1 q) := by
  refine (shapeCast_addUnit_apply (n := 1) ![B] v h1 (ix2 z q)).trans (congrArg v ?_)
  funext a
  match a with
  | ⟨0, _⟩ => rfl

/-- The row broadcast to A rows, at (p, q), is the vector at q. -/
theorem bcastRow_apply {α : Type} {A B : Nat} (v : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (p : Fin A) (q : Fin B) :
    broadcastTo ⟨2, ![A, B]⟩ (shapeCast ⟨2, ![1, B]⟩ v h1) h2 (ix2 p q) = v (ix1 q) := by
  refine (broadcastTo_apply (shapeCast ⟨2, ![1, B]⟩ v h1) h2 (ix2 p q) (ix2 (0 : Fin 1) q) ?_).trans
    (rowCast_apply v h1 0 q)
  intro a
  match a with
  | ⟨0, _⟩ => simp
  | ⟨1, _⟩ =>
    show q.val = if B = 1 then 0 else q.val
    split
    · have := q.isLt; omega
    · rfl

end Cert.Lib.Layout

end
-- ==== Proof.LibDense.lean ====
/-
  A dense layer read as one whole-array function (a general lemma: nothing here depends on a program).

  For x : [A, K], w : [K, C] and b : [C] the affine map is (x·w + b)[a, c] = Σ_{k<K} x[a, k]·w[k, c] + b[c], and its
  rectified form is max(·, 0).  Two spellings compute them at the ideal values.  The matrix unit's: both operands narrowed
  to bf16 (the identity on the extended reals), the product into a zero accumulator, the bias as one row broadcast down the
  rows, the rectifier against a scalar splat.  The host's: dot_general, the bias through two broadcast_in_dim, the
  rectifier against a broadcast scalar constant.  Both are the same function of (x, w, b), entry by entry; the zero the
  rectifier compares with is kept as the word's ideal value on both sides and never evaluated.
-/
import Idealize.ShloMosaic.Lib.ValueIdx
import Idealize.ShloMosaic.Lib.Pipeline.Value
import Idealize.ShloMosaic.PureOps.Ideal.Laws
import proofs.«114788_j48103633715705_1_alg».proof.Proof.LibMatmul
import proofs.«114788_j48103633715705_1_alg».proof.Proof.LibLayout

noncomputable section

namespace Cert.Lib.Dense

open Idealize.ShloMosaic Idealize.ShloMosaic.ValueIdx

variable {A K C : Nat}

/-- (x·w + b) at every entry: row a of x against column c of w, plus the bias of column c. -/
def affine (x : (⟨2, ![A, K]⟩ : Shape).Idx → EReal) (w : (⟨2, ![K, C]⟩ : Shape).Idx → EReal)
    (b : (⟨1, ![C]⟩ : Shape).Idx → EReal) : (⟨2, ![A, C]⟩ : Shape).Idx → EReal :=
  fun i => (∑ k : Fin K, x (ix2 (i 0 : Fin A) k) * w (ix2 k (i 1 : Fin C))) + b (ix1 (i 1 : Fin C))

/-- max(x·w + b, 0) at every entry, the zero being the ideal value of the all-zero f32 word. -/
def rectified (x : (⟨2, ![A, K]⟩ : Shape).Idx → EReal) (w : (⟨2, ![K, C]⟩ : Shape).Idx → EReal)
    (b : (⟨1, ![C]⟩ : Shape).Idx → EReal) : (⟨2, ![A, C]⟩ : Shape).Idx → EReal :=
  fun i => max (affine x w b i) (Ideal.ofBits .f32 0x00000000#32)

theorem affine_apply (x : (⟨2, ![A, K]⟩ : Shape).Idx → EReal) (w : (⟨2, ![K, C]⟩ : Shape).Idx → EReal)
    (b : (⟨1, ![C]⟩ : Shape).Idx → EReal) (a : Fin A) (c : Fin C) :
    affine x w b (ix2 a c) = (∑ k : Fin K, x (ix2 a k) * w (ix2 k c)) + b (ix1 c) := rfl

theorem rectified_apply (x : (⟨2, ![A, K]⟩ : Shape).Idx → EReal) (w : (⟨2, ![K, C]⟩ : Shape).Idx → EReal)
    (b : (⟨1, ![C]⟩ : Shape).Idx → EReal) (a : Fin A) (c : Fin C) :
    rectified x w b (ix2 a c)
      = max ((∑ k : Fin K, x (ix2 a k) * w (ix2 k c)) + b (ix1 c)) (Ideal.ofBits .f32 0x00000000#32) := rfl

/-! ## The matrix unit's spelling -/

/-- Narrowed operands into a zero accumulator, plus the bias row broadcast down: the affine map. -/
theorem mxu_affine (x : FVec Ideal ⟨2, ![A, K]⟩ .f32) (w : FVec Ideal ⟨2, ![K, C]⟩ .f32) (b : FVec Ideal ⟨1, ![C]⟩ .f32)
    (hx : (⟨2, ![A, K]⟩ : Shape).ShapeCasts ⟨2, ![A, K]⟩) (hw : (⟨2, ![K, C]⟩ : Shape).ShapeCasts ⟨2, ![K, C]⟩)
    (hlt : FTy.bf16.bits < FTy.f32.bits)
    (h1 : (⟨1, ![C]⟩ : Shape).ShapeCasts ⟨2, ![1, C]⟩) (h2 : (⟨2, ![1, C]⟩ : Shape).Broadcasts ⟨2, ![A, C]⟩)
    (prec : Option ContractPrecision) :
    addf (matmul (DotDims.plain A K C) prec (truncf .bf16 (shapeCast ⟨2, ![A, K]⟩ x hx) hlt)
        (truncf .bf16 (shapeCast ⟨2, ![K, C]⟩ w hw) hlt) (constant ⟨2, ![A, C]⟩ .f32 0x00000000#32))
      (broadcastTo ⟨2, ![A, C]⟩ (shapeCast ⟨2, ![1, C]⟩ b h1) h2)
    = affine x w b := by
  funext i
  obtain ⟨a, c, rfl⟩ : ∃ (a : Fin A) (c : Fin C), i = ix2 a c := ⟨i 0, i 1, eq_ix2 i⟩
  rw [addf_apply, affine_apply]
  show FloatOps.matmul (DotDims.plain A K C) prec _ _ (constant ⟨2, ![A, C]⟩ .f32 0x00000000#32) (ix2 a c) + _ = _
  rw [Cert.Lib.Matmul.matmul_zero_apply, Cert.Lib.Layout.bcastRow_apply]
  simp only [truncf_apply, shapeCast_self]

/-- The same against a scalar splat of zero: the rectified map. -/
theorem mxu_rectified (x : FVec Ideal ⟨2, ![A, K]⟩ .f32) (w : FVec Ideal ⟨2, ![K, C]⟩ .f32) (b : FVec Ideal ⟨1, ![C]⟩ .f32)
    (hx : (⟨2, ![A, K]⟩ : Shape).ShapeCasts ⟨2, ![A, K]⟩) (hw : (⟨2, ![K, C]⟩ : Shape).ShapeCasts ⟨2, ![K, C]⟩)
    (hlt : FTy.bf16.bits < FTy.f32.bits)
    (h1 : (⟨1, ![C]⟩ : Shape).ShapeCasts ⟨2, ![1, C]⟩) (h2 : (⟨2, ![1, C]⟩ : Shape).Broadcasts ⟨2, ![A, C]⟩)
    (prec : Option ContractPrecision) :
    maximumf (addf (matmul (DotDims.plain A K C) prec (truncf .bf16 (shapeCast ⟨2, ![A, K]⟩ x hx) hlt)
          (truncf .bf16 (shapeCast ⟨2, ![K, C]⟩ w hw) hlt) (constant ⟨2, ![A, C]⟩ .f32 0x00000000#32))
        (broadcastTo ⟨2, ![A, C]⟩ (shapeCast ⟨2, ![1, C]⟩ b h1) h2))
      (broadcast ⟨2, ![A, C]⟩ (Scalar.ofBits (F := Ideal) .f32 0x00000000#32))
    = rectified x w b := by
  funext i
  rw [maximumf_apply, mxu_affine]
  rfl

/-! ## The host's spelling -/

/-- A vector of C entries broadcast to one row and then down A rows, at (a, c), is the vector at c. -/
theorem hostBias_apply (b : (⟨1, ![C]⟩ : Shape).Idx → EReal)
    (hb1 : (⟨1, ![C]⟩ : Shape).BroadcastsInDim ⟨2, ![1, C]⟩ (![1] : Fin 1 → Fin 2))
    (hb2 : (⟨2, ![1, C]⟩ : Shape).BroadcastsInDim ⟨2, ![A, C]⟩ (![0, 1] : Fin 2 → Fin 2)) (a : Fin A) (c : Fin C) :
    broadcastInDim ⟨2, ![A, C]⟩ (![0, 1] : Fin 2 → Fin 2) hb2
        (broadcastInDim ⟨2, ![1, C]⟩ (![1] : Fin 1 → Fin 2) hb1 b) (ix2 a c) = b (ix1 c) := by
  refine (broadcastInDim_apply (![0, 1] : Fin 2 → Fin 2) hb2 _ (ix2 a c) (ix2 (0 : Fin 1) c) ?_).trans
    (broadcastInDim_apply (![1] : Fin 1 → Fin 2) hb1 b (ix2 (0 : Fin 1) c) (ix1 c) ?_)
  · intro d
    match d with
    | ⟨0, _⟩ => simp
    | ⟨1, _⟩ =>
      show c.val = if C = 1 then 0 else c.val
      split
      · have := c.isLt; omega
      · rfl
  · intro d
    match d with
    | ⟨0, _⟩ =>
      show c.val = if C = 1 then 0 else c.val
      split
      · have := c.isLt; omega
      · rfl

/-- dot_general plus the bias through two broadcast_in_dim: the affine map. -/
theorem host_affine (x : FVec Ideal ⟨2, ![A, K]⟩ .f32) (w : FVec Ideal ⟨2, ![K, C]⟩ .f32) (b : FVec Ideal ⟨1, ![C]⟩ .f32)
    (hb1 : (⟨1, ![C]⟩ : Shape).BroadcastsInDim ⟨2, ![1, C]⟩ (![1] : Fin 1 → Fin 2))
    (hb2 : (⟨2, ![1, C]⟩ : Shape).BroadcastsInDim ⟨2, ![A, C]⟩ (![0, 1] : Fin 2 → Fin 2))
    (prec : Option ContractPrecision) :
    addf (Host.dotGeneral (DotDims.plain A K C) prec x w)
      (broadcastInDim ⟨2, ![A, C]⟩ (![0, 1] : Fin 2 → Fin 2) hb2
        (broadcastInDim ⟨2, ![1, C]⟩ (![1] : Fin 1 → Fin 2) hb1 b))
    = affine x w b := by
  funext i
  obtain ⟨a, c, rfl⟩ : ∃ (a : Fin A) (c : Fin C), i = ix2 a c := ⟨i 0, i 1, eq_ix2 i⟩
  rw [addf_apply, affine_apply, hostBias_apply]
  show FloatOps.dotGeneral (DotDims.plain A K C) prec .single x w (ix2 a c) + _ = _
  rw [Cert.Lib.Matmul.dotGeneral_apply]

/-- The same against a broadcast scalar constant zero: the rectified map. -/
theorem host_rectified (x : FVec Ideal ⟨2, ![A, K]⟩ .f32) (w : FVec Ideal ⟨2, ![K, C]⟩ .f32) (b : FVec Ideal ⟨1, ![C]⟩ .f32)
    (hb1 : (⟨1, ![C]⟩ : Shape).BroadcastsInDim ⟨2, ![1, C]⟩ (![1] : Fin 1 → Fin 2))
    (hb2 : (⟨2, ![1, C]⟩ : Shape).BroadcastsInDim ⟨2, ![A, C]⟩ (![0, 1] : Fin 2 → Fin 2))
    (h0 : (⟨0, ![]⟩ : Shape).BroadcastsInDim ⟨2, ![A, C]⟩ (![] : Fin 0 → Fin 2))
    (prec : Option ContractPrecision) :
    maximumf (addf (Host.dotGeneral (DotDims.plain A K C) prec x w)
        (broadcastInDim ⟨2, ![A, C]⟩ (![0, 1] : Fin 2 → Fin 2) hb2
          (broadcastInDim ⟨2, ![1, C]⟩ (![1] : Fin 1 → Fin 2) hb1 b)))
      (broadcastInDim ⟨2, ![A, C]⟩ (![] : Fin 0 → Fin 2) h0 (constant (F := Ideal) ⟨0, ![]⟩ .f32 0x00000000#32))
    = rectified x w b := by
  funext i
  rw [maximumf_apply, host_affine,
    broadcastInDim_apply (![] : Fin 0 → Fin 2) h0 _ i ix0 (fun d => d.elim0)]
  rfl

end Cert.Lib.Dense

end
-- ==== Proof.Spec.lean ====
/-
  The two linear projections of a graph layer, as whole-array functions at the ideal values.

  With ho, hi : [A, 128] (the two aggregated message tables), W_O, W_I : [128, 128] and b_O, b_I : [128], the node
  projection is  h[a, c] = Σ_k ho[a, k]·W_O[c, k] + Σ_k hi[a, k]·W_I[c, k] + b_O[c] + b_I[c]  (x·Wᵀ + b, twice, summed),
  and with e : [A, 128], W : [128, 128], b : [128] the edge projection is  he[a, c] = Σ_k e[a, k]·W[c, k] + b[c].
  The weights enter UNTRANSPOSED: a transposed weight read at (k, c) is the weight at (c, k).

  Two spellings compute each.  The matrix unit's: operands narrowed to bf16 (the identity on the extended reals), the
  weight transposed, a product into a zero accumulator, each bias a one-row matrix broadcast down the rows; the node
  projection adds the two products first and the two biases after.  The host's: the weight transposed, dot_general, each bias
  through two broadcast_in_dim; the node projection adds  product, bias, product, bias  in that order.  Addition of
  extended reals is commutative and associative, so the two orders agree with no finiteness assumption.
-/
import Idealize.ShloMosaic.Lib.ValueIdx
import Idealize.ShloMosaic.Lib.ValueLayout
import Idealize.ShloMosaic.Lib.Pipeline.Value
import Idealize.ShloMosaic.PureOps.Ideal.Laws
import proofs.«114788_j48103633715705_1_alg».proof.Proof.LibMatmul
import proofs.«114788_j48103633715705_1_alg».proof.Proof.LibDense

noncomputable section

namespace Cert.Proj

open Idealize.ShloMosaic Idealize.ShloMosaic.ValueIdx

variable {A : Nat}

/-- The node projection at every entry: row a of each table against row c of its weight, plus both biases at c. -/
def nodeProj (ho hi : (⟨2, ![A, 128]⟩ : Shape).Idx → EReal) (wo wi : (⟨2, ![128, 128]⟩ : Shape).Idx → EReal)
    (bo bi : (⟨1, ![128]⟩ : Shape).Idx → EReal) : (⟨2, ![A, 128]⟩ : Shape).Idx → EReal :=
  fun i => (∑ k : Fin 128, ho (ix2 (i 0 : Fin A) k) * wo (ix2 (i 1 : Fin 128) k))
    + (∑ k : Fin 128, hi (ix2 (i 0 : Fin A) k) * wi (ix2 (i 1 : Fin 128) k))
    + bo (ix1 (i 1 : Fin 128)) + bi (ix1 (i 1 : Fin 128))

/-- The edge projection at every entry: row a of the table against row c of the weight, plus the bias at c. -/
def edgeProj (e : (⟨2, ![A, 128]⟩ : Shape).Idx → EReal) (w : (⟨2, ![128, 128]⟩ : Shape).Idx → EReal)
    (b : (⟨1, ![128]⟩ : Shape).Idx → EReal) : (⟨2, ![A, 128]⟩ : Shape).Idx → EReal :=
  fun i => (∑ k : Fin 128, e (ix2 (i 0 : Fin A) k) * w (ix2 (i 1 : Fin 128) k)) + b (ix1 (i 1 : Fin 128))

theorem nodeProj_apply (ho hi : (⟨2, ![A, 128]⟩ : Shape).Idx → EReal) (wo wi : (⟨2, ![128, 128]⟩ : Shape).Idx → EReal)
    (bo bi : (⟨1, ![128]⟩ : Shape).Idx → EReal) (a : Fin A) (c : Fin 128) :
    nodeProj ho hi wo wi bo bi (ix2 a c)
      = (∑ k : Fin 128, ho (ix2 a k) * wo (ix2 c k)) + (∑ k : Fin 128, hi (ix2 a k) * wi (ix2 c k))
        + bo (ix1 c) + bi (ix1 c) := rfl

theorem edgeProj_apply (e : (⟨2, ![A, 128]⟩ : Shape).Idx → EReal) (w : (⟨2, ![128, 128]⟩ : Shape).Idx → EReal)
    (b : (⟨1, ![128]⟩ : Shape).Idx → EReal) (a : Fin A) (c : Fin 128) :
    edgeProj e w b (ix2 a c) = (∑ k : Fin 128, e (ix2 a k) * w (ix2 c k)) + b (ix1 c) := rfl

/-- The one row of a [1, 128] matrix as a vector of 128 entries. -/
def rowOf (r : (⟨2, ![1, 128]⟩ : Shape).Idx → EReal) : (⟨1, ![128]⟩ : Shape).Idx → EReal :=
  fun j => r (ix2 (0 : Fin 1) (j 0 : Fin 128))

theorem rowOf_apply (r : (⟨2, ![1, 128]⟩ : Shape).Idx → EReal) (c : Fin 128) : rowOf r (ix1 c) = r (ix2 (0 : Fin 1) c) := rfl

/-- The row of a vector cast to one row is the vector. -/
theorem rowOf_shapeCast (v : (⟨1, ![128]⟩ : Shape).Idx → EReal) (h : (⟨1, ![128]⟩ : Shape).ShapeCasts ⟨2, ![1, 128]⟩) :
    rowOf (shapeCast ⟨2, ![1, 128]⟩ v h) = v := by
  funext j
  obtain ⟨q, rfl⟩ : ∃ q : Fin 128, j = ix1 q := ⟨j 0, eq_ix1 j⟩
  rw [rowOf_apply, shapeCast_a_1a_apply]

/-! ## The matrix unit's spelling -/

/-- A narrowed table against a narrowed, transposed weight into a zero accumulator, at (a, c). -/
theorem mxu_product_apply (x : FVec Ideal ⟨2, ![A, 128]⟩ .bf16) (w : FVec Ideal ⟨2, ![128, 128]⟩ .f32)
    (hlt : FTy.bf16.bits < FTy.f32.bits) (htr : (⟨2, ![128, 128]⟩ : Shape).Transposes [1, 0] ⟨2, ![128, 128]⟩)
    (prec : Option ContractPrecision) (a : Fin A) (c : Fin 128) :
    matmul (DotDims.plain A 128 128) prec x (transpose ⟨2, ![128, 128]⟩ [1, 0] (truncf .bf16 w hlt) htr)
        (constant ⟨2, ![A, 128]⟩ .f32 0x00000000#32) (ix2 a c)
      = ∑ k : Fin 128, (x (ix2 a k) : EReal) * w (ix2 c k) := by
  show FloatOps.matmul (DotDims.plain A 128 128) prec _ _ (constant ⟨2, ![A, 128]⟩ .f32 0x00000000#32) (ix2 a c) = _
  rw [Cert.Lib.Matmul.matmul_zero_apply]
  refine Finset.sum_congr rfl fun k _ => ?_
  rw [transpose_ix2_apply, truncf_apply]

/-- Two products summed, then the two bias rows broadcast down and added: the node projection. -/
theorem mxu_node (x0 x1 : FVec Ideal ⟨2, ![A, 128]⟩ .f32) (w0 w1 : FVec Ideal ⟨2, ![128, 128]⟩ .f32)
    (r0 r1 : FVec Ideal ⟨2, ![1, 128]⟩ .f32)
    (hx : (⟨2, ![A, 128]⟩ : Shape).ShapeCasts ⟨2, ![A, 128]⟩) (hlt : FTy.bf16.bits < FTy.f32.bits)
    (htr : (⟨2, ![128, 128]⟩ : Shape).Transposes [1, 0] ⟨2, ![128, 128]⟩)
    (hr : (⟨2, ![1, 128]⟩ : Shape).ShapeCasts ⟨2, ![1, 128]⟩) (hb : (⟨2, ![1, 128]⟩ : Shape).Broadcasts ⟨2, ![A, 128]⟩)
    (prec : Option ContractPrecision) :
    addf (addf (addf
          (matmul (DotDims.plain A 128 128) prec (truncf .bf16 (shapeCast ⟨2, ![A, 128]⟩ x0 hx) hlt)
            (transpose ⟨2, ![128, 128]⟩ [1, 0] (truncf .bf16 w0 hlt) htr) (constant ⟨2, ![A, 128]⟩ .f32 0x00000000#32))
          (matmul (DotDims.plain A 128 128) prec (truncf .bf16 (shapeCast ⟨2, ![A, 128]⟩ x1 hx) hlt)
            (transpose ⟨2, ![128, 128]⟩ [1, 0] (truncf .bf16 w1 hlt) htr) (constant ⟨2, ![A, 128]⟩ .f32 0x00000000#32)))
        (broadcastTo ⟨2, ![A, 128]⟩ (shapeCast ⟨2, ![1, 128]⟩ r0 hr) hb))
      (broadcastTo ⟨2, ![A, 128]⟩ (shapeCast ⟨2, ![1, 128]⟩ r1 hr) hb)
    = nodeProj x0 x1 w0 w1 (rowOf r0) (rowOf r1) := by
  funext i
  obtain ⟨a, c, rfl⟩ : ∃ (a : Fin A) (c : Fin 128), i = ix2 a c := ⟨i 0, i 1, eq_ix2 i⟩
  rw [addf_apply, addf_apply, addf_apply, nodeProj_apply, mxu_product_apply, mxu_product_apply,
    shapeCast_self, shapeCast_self, broadcastTo_1b_ab_apply, broadcastTo_1b_ab_apply, rowOf_apply, rowOf_apply]
  simp only [truncf_apply, shapeCast_self]

/-- One product plus the bias row broadcast down: the edge projection. -/
theorem mxu_edge (x : FVec Ideal ⟨2, ![A, 128]⟩ .f32) (w : FVec Ideal ⟨2, ![128, 128]⟩ .f32)
    (r : FVec Ideal ⟨2, ![1, 128]⟩ .f32) (hlt : FTy.bf16.bits < FTy.f32.bits)
    (htr : (⟨2, ![128, 128]⟩ : Shape).Transposes [1, 0] ⟨2, ![128, 128]⟩)
    (hr : (⟨2, ![1, 128]⟩ : Shape).ShapeCasts ⟨2, ![1, 128]⟩) (hb : (⟨2, ![1, 128]⟩ : Shape).Broadcasts ⟨2, ![A, 128]⟩)
    (prec : Option ContractPrecision) :
    addf (matmul (DotDims.plain A 128 128) prec (truncf .bf16 x hlt)
          (transpose ⟨2, ![128, 128]⟩ [1, 0] (truncf .bf16 w hlt) htr) (constant ⟨2, ![A, 128]⟩ .f32 0x00000000#32))
      (broadcastTo ⟨2, ![A, 128]⟩ (shapeCast ⟨2, ![1, 128]⟩ r hr) hb)
    = edgeProj x w (rowOf r) := by
  funext i
  obtain ⟨a, c, rfl⟩ : ∃ (a : Fin A) (c : Fin 128), i = ix2 a c := ⟨i 0, i 1, eq_ix2 i⟩
  rw [addf_apply, edgeProj_apply, mxu_product_apply, shapeCast_self, broadcastTo_1b_ab_apply, rowOf_apply]
  simp only [truncf_apply]

/-! ## The host's spelling -/

/-- A table against a transposed weight by dot_general, at (a, c). -/
theorem host_product_apply (x : FVec Ideal ⟨2, ![A, 128]⟩ .f32) (w : FVec Ideal ⟨2, ![128, 128]⟩ .f32)
    (htr : (⟨2, ![128, 128]⟩ : Shape).Transposes [1, 0] ⟨2, ![128, 128]⟩)
    (prec : Option ContractPrecision) (a : Fin A) (c : Fin 128) :
    Host.dotGeneral (DotDims.plain A 128 128) prec x (transpose ⟨2, ![128, 128]⟩ [1, 0] w htr) (ix2 a c)
      = ∑ k : Fin 128, x (ix2 a k) * w (ix2 c k) := by
  show FloatOps.dotGeneral (DotDims.plain A 128 128) prec .single x _ (ix2 a c) = _
  rw [Cert.Lib.Matmul.dotGeneral_apply]
  refine Finset.sum_congr rfl fun k _ => ?_
  rw [transpose_ix2_apply]

/-- product, bias, product, bias, added in that order: the node projection. -/
theorem host_node (x0 x1 : FVec Ideal ⟨2, ![A, 128]⟩ .f32) (w0 w1 : FVec Ideal ⟨2, ![128, 128]⟩ .f32)
    (b0 b1 : FVec Ideal ⟨1, ![128]⟩ .f32)
    (htr : (⟨2, ![128, 128]⟩ : Shape).Transposes [1, 0] ⟨2, ![128, 128]⟩)
    (hb1 : (⟨1, ![128]⟩ : Shape).BroadcastsInDim ⟨2, ![1, 128]⟩ (![1] : Fin 1 → Fin 2))
    (hb2 : (⟨2, ![1, 128]⟩ : Shape).BroadcastsInDim ⟨2, ![A, 128]⟩ (![0, 1] : Fin 2 → Fin 2))
    (prec : Option ContractPrecision) :
    addf (addf (addf
          (Host.dotGeneral (DotDims.plain A 128 128) prec x0 (transpose ⟨2, ![128, 128]⟩ [1, 0] w0 htr))
          (broadcastInDim ⟨2, ![A, 128]⟩ (![0, 1] : Fin 2 → Fin 2) hb2
            (broadcastInDim ⟨2, ![1, 128]⟩ (![1] : Fin 1 → Fin 2) hb1 b0)))
        (Host.dotGeneral (DotDims.plain A 128 128) prec x1 (transpose ⟨2, ![128, 128]⟩ [1, 0] w1 htr)))
      (broadcastInDim ⟨2, ![A, 128]⟩ (![0, 1] : Fin 2 → Fin 2) hb2
        (broadcastInDim ⟨2, ![1, 128]⟩ (![1] : Fin 1 → Fin 2) hb1 b1))
    = nodeProj x0 x1 w0 w1 b0 b1 := by
  funext i
  obtain ⟨a, c, rfl⟩ : ∃ (a : Fin A) (c : Fin 128), i = ix2 a c := ⟨i 0, i 1, eq_ix2 i⟩
  rw [addf_apply, addf_apply, addf_apply, nodeProj_apply, host_product_apply, host_product_apply,
    Cert.Lib.Dense.hostBias_apply, Cert.Lib.Dense.hostBias_apply]
  exact congrArg (· + b1 (ix1 c)) (add_right_comm _ _ _)

/-- product plus bias: the edge projection. -/
theorem host_edge (x : FVec Ideal ⟨2, ![A, 128]⟩ .f32) (w : FVec Ideal ⟨2, ![128, 128]⟩ .f32)
    (b : FVec Ideal ⟨1, ![128]⟩ .f32)
    (htr : (⟨2, ![128, 128]⟩ : Shape).Transposes [1, 0] ⟨2, ![128, 128]⟩)
    (hb1 : (⟨1, ![128]⟩ : Shape).BroadcastsInDim ⟨2, ![1, 128]⟩ (![1] : Fin 1 → Fin 2))
    (hb2 : (⟨2, ![1, 128]⟩ : Shape).BroadcastsInDim ⟨2, ![A, 128]⟩ (![0, 1] : Fin 2 → Fin 2))
    (prec : Option ContractPrecision) :
    addf (Host.dotGeneral (DotDims.plain A 128 128) prec x (transpose ⟨2, ![128, 128]⟩ [1, 0] w htr))
      (broadcastInDim ⟨2, ![A, 128]⟩ (![0, 1] : Fin 2 → Fin 2) hb2
        (broadcastInDim ⟨2, ![1, 128]⟩ (![1] : Fin 1 → Fin 2) hb1 b))
    = edgeProj x w b := by
  funext i
  obtain ⟨a, c, rfl⟩ : ∃ (a : Fin A) (c : Fin 128), i = ix2 a c := ⟨i 0, i 1, eq_ix2 i⟩
  rw [addf_apply, edgeProj_apply, host_product_apply, Cert.Lib.Dense.hostBias_apply]

/-! ## A band of rows -/

/-- The node projection of a band of rows is the band of the node projection: entry j of the band is entry i of the whole
    when they lie in the same column, row j 0 of each band table is row i 0 of the whole table, and the weights and biases
    are the same.  Only row i 0 of each table enters entry i. -/
theorem nodeProj_congr {N : Nat} (ho hi : (⟨2, ![N, 128]⟩ : Shape).Idx → EReal) (wo wi : (⟨2, ![128, 128]⟩ : Shape).Idx → EReal)
    (bo bi : (⟨1, ![128]⟩ : Shape).Idx → EReal) (x0 x1 : (⟨2, ![A, 128]⟩ : Shape).Idx → EReal)
    (y0 y1 : (⟨2, ![128, 128]⟩ : Shape).Idx → EReal) (c0 c1 : (⟨1, ![128]⟩ : Shape).Idx → EReal)
    (i : (⟨2, ![N, 128]⟩ : Shape).Idx) (j : (⟨2, ![A, 128]⟩ : Shape).Idx)
    (hcol : (i 1).val = (j 1).val)
    (h0 : ∀ k : Fin 128, x0 (ix2 (j 0 : Fin A) k) = ho (ix2 (i 0 : Fin N) k))
    (h1 : ∀ k : Fin 128, x1 (ix2 (j 0 : Fin A) k) = hi (ix2 (i 0 : Fin N) k))
    (hy0 : y0 = wo) (hy1 : y1 = wi) (hc0 : c0 = bo) (hc1 : c1 = bi) :
    nodeProj x0 x1 y0 y1 c0 c1 j = nodeProj ho hi wo wi bo bi i := by
  subst hy0 hy1 hc0 hc1
  have hc : (j 1 : Fin 128) = (i 1 : Fin 128) := Fin.ext hcol.symm
  unfold nodeProj
  simp only [h0, h1, hc]

/-- The same for the edge projection. -/
theorem edgeProj_congr {N : Nat} (e : (⟨2, ![N, 128]⟩ : Shape).Idx → EReal) (w : (⟨2, ![128, 128]⟩ : Shape).Idx → EReal)
    (b : (⟨1, ![128]⟩ : Shape).Idx → EReal) (x : (⟨2, ![A, 128]⟩ : Shape).Idx → EReal)
    (y : (⟨2, ![128, 128]⟩ : Shape).Idx → EReal) (c0 : (⟨1, ![128]⟩ : Shape).Idx → EReal)
    (i : (⟨2, ![N, 128]⟩ : Shape).Idx) (j : (⟨2, ![A, 128]⟩ : Shape).Idx)
    (hcol : (i 1).val = (j 1).val)
    (h0 : ∀ k : Fin 128, x (ix2 (j 0 : Fin A) k) = e (ix2 (i 0 : Fin N) k))
    (hy : y = w) (hc0 : c0 = b) :
    edgeProj x y c0 j = edgeProj e w b i := by
  subst hy hc0
  have hc : (j 1 : Fin 128) = (i 1 : Fin 128) := Fin.ext hcol.symm
  unfold edgeProj
  simp only [h0, hc]

end Cert.Proj

end
-- ==== Proof.RegionNode.lean ====
/-
  The node-projection region, read as a value at the ideal instance.

  The region walks the 40000 rows of the two aggregated tables ho, hi in 10 bands of 4000 rows; at each band the body
  computes, for the band's rows, ho·W_Oᵀ + hi·W_Iᵀ + b_O + b_I with both weights and both bias rows whole, and writes the
  band back.  Entry (r, c) of the result depends on row r of ho and hi only, so band t of the result is band t of the node
  projection of the whole tables, and the 10 bands tile the array: the array ends holding the node projection of the
  contents the region was entered with.
-/
import proofs.«114788_j48103633715705_1_alg».proof.Proof.Gen.KernelIdeal.Frame
import proofs.«114788_j48103633715705_1_alg».proof.Proof.Spec
import Idealize.ShloMosaic.Lib.Pipeline.Value

set_option maxRecDepth 16384

noncomputable section

namespace Cert.KernelIdeal.NodeRegion

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the buffer contents when the region is entered: every statement below holds at any such contents
variable (V : (c : Dev nD) → (b : Ref sig .tc) → Buf (Elt Ideal) ((c : Thread nD τ).loc b))

theorem hz : (![0, 0] : Fin 2 → Nat) = fun _ => 0 := funext fun a => by fin_cases a <;> rfl

/-- The node projection of the arrays the region is entered with: the two tables, the two weights, and the one row of
    each bias matrix. -/
abbrev whole (c : Dev nD) : S40000x128.Idx → EReal :=
  Cert.Proj.nodeProj (A := 40000) (V c main_v10) (V c main_v21) (V c main_arg4) (V c main_arg6)
    (Cert.Proj.rowOf (V c main_v22)) (Cert.Proj.rowOf (V c main_v23))

/-- The body's stored value is the node projection of the blocks it loads. -/
theorem pay_eq (x0 x1 : Vec Ideal S4000x128 .f32) (x2 x4 : Vec Ideal S128x128 .f32) (x3 x5 : Vec Ideal S1x128 .f32) :
    k0_pay1 x0 x1 x2 x4 x3 x5
      = Cert.Proj.nodeProj (A := 4000) x0 x1 x2 x4 (Cert.Proj.rowOf x3) (Cert.Proj.rowOf x5) := by
  unfold k0_pay1
  exact Cert.Proj.mxu_node (A := 4000) x0 x1 x2 x4 x3 x5 _ _ _ _ _ none

/-- The index maps over the grid: the two tables move with the output, one band per point; the weights and the bias
    rows stay at block (0, 0); the output's band at point t is band t. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- A weight's block is the whole weight. -/
theorem blk2 (c : Dev nD) (t : Fin cfg0.N) : (iblk0 V c 2 t : S128x128.Idx → EReal) = V c main_arg4 := by
  obtain ⟨-, -, -, -, e0, e1, -⟩ := idx_facts t
  funext y
  show V c main_arg4 (((cfg0.win 2).blk t).view.emb y) = V c main_arg4 y
  refine congrArg (V c main_arg4) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem blk4 (c : Dev nD) (t : Fin cfg0.N) : (iblk0 V c 4 t : S128x128.Idx → EReal) = V c main_arg6 := by
  obtain ⟨-, -, -, -, -, -, -, -, e0, e1, -⟩ := idx_facts t
  funext y
  show V c main_arg6 (((cfg0.win 4).blk t).view.emb y) = V c main_arg6 y
  refine congrArg (V c main_arg6) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- A bias row's block is the whole one-row matrix. -/
theorem blk3 (c : Dev nD) (t : Fin cfg0.N) : (iblk0 V c 3 t : S1x128.Idx → EReal) = V c main_v22 := by
  obtain ⟨-, -, -, -, -, -, e0, e1, -⟩ := idx_facts t
  funext y
  show V c main_v22 (((cfg0.win 3).blk t).view.emb y) = V c main_v22 y
  refine congrArg (V c main_v22) (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

theorem blk5 (c : Dev nD) (t : Fin cfg0.N) : (iblk0 V c 5 t : S1x128.Idx → EReal) = V c main_v23 := by
  obtain ⟨-, -, -, -, -, -, -, -, -, -, e0, e1, -⟩ := idx_facts t
  funext y
  show V c main_v23 (((cfg0.win 5).blk t).view.emb y) = V c main_v23 y
  refine congrArg (V c main_v23) (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- What point t writes back is band t of the node projection of the entry contents. -/
theorem flushed_eq (c : Dev nD) (t : Fin cfg0.N) :
    (dat0 V c).flushed 6 t = ((cfg0.win 6).blk t).view.read (Elt Ideal) (whole V c) := by
  show (cfg0.win 6).cut (grid0.coords t) ((dat0 V c).after 6 t) = _
  rw [after0_6]
  unfold out0_6
  rw [View.canon_unit_zero hz]
  simp only [View.ld_unit_zero (S := S4000x128) hz, View.ld_unit_zero (S := S128x128) hz,
    View.ld_unit_zero (S := S1x128) hz]
  rw [pay_eq]
  obtain ⟨e00, e01, e10, e11, -, -, -, -, -, -, -, -, e60, e61⟩ := idx_facts t
  funext j
  show Cert.Proj.nodeProj (A := 4000) (iblk0 V c 0 t) (iblk0 V c 1 t) (iblk0 V c 2 t) (iblk0 V c 4 t)
      (Cert.Proj.rowOf (iblk0 V c 3 t)) (Cert.Proj.rowOf (iblk0 V c 5 t)) j
    = whole V c (((cfg0.win 6).blk t).view.emb j)
  refine Cert.Proj.nodeProj_congr (A := 4000) (N := 40000) _ _ _ _ _ _ _ _ _ _ _ _ _ _ ?_ ?_ ?_
    (blk2 V c t) (blk4 V c t) (congrArg Cert.Proj.rowOf (blk3 V c t)) (congrArg Cert.Proj.rowOf (blk5 V c t))
  · show win0_6.index t (1 : Fin 2) * 128 + 1 * (j 1).val = (j 1).val
    omega
  · intro k
    show V c main_v10 (((cfg0.win 0).blk t).view.emb (ix2 (j 0 : Fin 4000) k))
      = V c main_v10 (ix2 ((((cfg0.win 6).blk t).view.emb j) 0 : Fin 40000) k)
    refine congrArg (V c main_v10) (funext fun a => Fin.ext ?_)
    match a with
    | ⟨0, _⟩ =>
      show win0_0.index t (0 : Fin 2) * 4000 + 1 * (j 0).val = win0_6.index t (0 : Fin 2) * 4000 + 1 * (j 0).val
      omega
    | ⟨1, _⟩ =>
      show win0_0.index t (1 : Fin 2) * 128 + 1 * k.val = k.val
      omega
  · intro k
    show V c main_v21 (((cfg0.win 1).blk t).view.emb (ix2 (j 0 : Fin 4000) k))
      = V c main_v21 (ix2 ((((cfg0.win 6).blk t).view.emb j) 0 : Fin 40000) k)
    refine congrArg (V c main_v21) (funext fun a => Fin.ext ?_)
    match a with
    | ⟨0, _⟩ =>
      show win0_1.index t (0 : Fin 2) * 4000 + 1 * (j 0).val = win0_6.index t (0 : Fin 2) * 4000 + 1 * (j 0).val
      omega
    | ⟨1, _⟩ =>
      show win0_1.index t (1 : Fin 2) * 128 + 1 * k.val = k.val
      omega

/-- An index of the array lies in point t's band iff each coordinate lies in the band's range on its axis. -/
theorem mem_blk (t : Fin cfg0.N) (i : S40000x128.Idx) :
    i ∈ ((cfg0.win 6).blk t).view.set ↔ ∀ a : Fin 2, win0_6.index t a * S4000x128.size a ≤ (i a).val
      ∧ (i a).val < win0_6.index t a * S4000x128.size a + S4000x128.size a := by
  show i ∈ ((View.whole main_v24).slice (win0_6.rect t)).set ↔ _
  rw [View.set_slice_whole, Rect.mem_set_unit]
  exact Iff.rfl

/-- The bands tile the array: row r lies in band r / 4000. -/
theorem cover (i : S40000x128.Idx) :
    ∃ t : Fin cfg0.N, (cfg0.win 6).flush t = true ∧ i ∈ ((cfg0.win 6).blk t).view.set := by
  have hi0 : (i 0).val < 40000 := (i 0).isLt
  have hi1 : (i 1).val < 128 := (i 1).isLt
  have hN : (i 0).val / 4000 < cfg0.N := by
    show (i 0).val / 4000 < grid0.N
    rw [N_0]; omega
  obtain ⟨-, -, -, -, -, -, -, -, -, -, -, -, e60, e61⟩ := idx_facts ⟨(i 0).val / 4000, hN⟩
  have e60' : win0_6.index ⟨(i 0).val / 4000, hN⟩ (0 : Fin 2) = (i 0).val / 4000 := e60
  refine ⟨⟨(i 0).val / 4000, hN⟩, flush0_6 _, ?_⟩
  rw [mem_blk]
  intro a
  match a with
  | ⟨0, _⟩ =>
    show win0_6.index ⟨(i 0).val / 4000, hN⟩ (0 : Fin 2) * 4000 ≤ (i 0).val
      ∧ (i 0).val < win0_6.index ⟨(i 0).val / 4000, hN⟩ (0 : Fin 2) * 4000 + 4000
    omega
  | ⟨1, _⟩ =>
    show win0_6.index ⟨(i 0).val / 4000, hN⟩ (1 : Fin 2) * 128 ≤ (i 1).val
      ∧ (i 1).val < win0_6.index ⟨(i 0).val / 4000, hN⟩ (1 : Fin 2) * 128 + 128
    omega

/-- The result array after the region: the node projection of the contents the region was entered with. -/
theorem final (c : Dev nD) : (dat0 V c).arrAt 6 cfg0.N = whole V c :=
  (dat0 V c).arrAt_eq_of_cover 6 (whole V c) (fun t _ => flushed_eq V c t) (cover)

end Cert.KernelIdeal.NodeRegion

end
-- ==== Proof.RegionEdge.lean ====
/-
  The edge-projection region, read as a value at the ideal instance.

  The region walks the 640000 rows of the edge table in 80 bands of 8000 rows; at each band the body computes, for the
  band's rows, e·Wᵀ + b with the weight and the bias row whole, and writes the band back.  Entry (r, c) of the result
  depends on row r of the table only, so band t of the result is band t of the edge projection of the whole table, and the
  80 bands tile the array: the array ends holding the edge projection of the contents the region was entered with.
-/
import proofs.«114788_j48103633715705_1_alg».proof.Proof.Gen.KernelIdeal.Frame
import proofs.«114788_j48103633715705_1_alg».proof.Proof.Spec
import Idealize.ShloMosaic.Lib.Pipeline.Value

set_option maxRecDepth 16384

noncomputable section

namespace Cert.KernelIdeal.EdgeRegion

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the buffer contents when the region is entered: every statement below holds at any such contents
variable (V : (c : Dev nD) → (b : Ref sig .tc) → Buf (Elt Ideal) ((c : Thread nD τ).loc b))

theorem hz : (![0, 0] : Fin 2 → Nat) = fun _ => 0 := funext fun a => by fin_cases a <;> rfl

/-- The edge projection of the arrays the region is entered with: the table, the weight, the one row of the bias matrix. -/
abbrev whole (c : Dev nD) : S640000x128.Idx → EReal :=
  Cert.Proj.edgeProj (A := 640000) (V c main_arg1) (V c main_arg8) (Cert.Proj.rowOf (V c main_v25))

/-- The body's stored value is the edge projection of the blocks it loads. -/
theorem pay_eq (x0 : Vec Ideal S8000x128 .f32) (x1 : Vec Ideal S128x128 .f32) (x2 : Vec Ideal S1x128 .f32) :
    k1_pay1 x0 x1 x2 = Cert.Proj.edgeProj (A := 8000) x0 x1 (Cert.Proj.rowOf x2) := by
  unfold k1_pay1
  exact Cert.Proj.mxu_edge (A := 8000) x0 x1 x2 _ _ _ _ none

/-- The index maps over the grid: the table moves with the output, one band per point; the weight and the bias row stay
    at block (0, 0); the output's band at point t is band t. -/
theorem idx_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The weight's block is the whole weight. -/
theorem blk1 (c : Dev nD) (t : Fin cfg1.N) : (iblk1 V c 1 t : S128x128.Idx → EReal) = V c main_arg8 := by
  obtain ⟨-, -, e0, e1, -⟩ := idx_facts t
  funext y
  show V c main_arg8 (((cfg1.win 1).blk t).view.emb y) = V c main_arg8 y
  refine congrArg (V c main_arg8) (funext fun a => Fin.ext ?_)
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- The bias row's block is the whole one-row matrix. -/
theorem blk2 (c : Dev nD) (t : Fin cfg1.N) : (iblk1 V c 2 t : S1x128.Idx → EReal) = V c main_v25 := by
  obtain ⟨-, -, -, -, e0, e1, -⟩ := idx_facts t
  funext y
  show V c main_v25 (((cfg1.win 2).blk t).view.emb y) = V c main_v25 y
  refine congrArg (V c main_v25) (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- What point t writes back is band t of the edge projection of the entry contents. -/
theorem flushed_eq (c : Dev nD) (t : Fin cfg1.N) :
    (dat1 V c).flushed 3 t = ((cfg1.win 3).blk t).view.read (Elt Ideal) (whole V c) := by
  show (cfg1.win 3).cut (grid1.coords t) ((dat1 V c).after 3 t) = _
  rw [after1_3]
  unfold out1_3
  rw [View.canon_unit_zero hz]
  simp only [View.ld_unit_zero (S := S8000x128) hz, View.ld_unit_zero (S := S128x128) hz,
    View.ld_unit_zero (S := S1x128) hz]
  rw [pay_eq]
  obtain ⟨e00, e01, -, -, -, -, e30, e31⟩ := idx_facts t
  funext j
  show Cert.Proj.edgeProj (A := 8000) (iblk1 V c 0 t) (iblk1 V c 1 t) (Cert.Proj.rowOf (iblk1 V c 2 t)) j
    = whole V c (((cfg1.win 3).blk t).view.emb j)
  refine Cert.Proj.edgeProj_congr (A := 8000) (N := 640000) _ _ _ _ _ _ _ _ ?_ ?_
    (blk1 V c t) (congrArg Cert.Proj.rowOf (blk2 V c t))
  · show win1_3.index t (1 : Fin 2) * 128 + 1 * (j 1).val = (j 1).val
    omega
  · intro k
    show V c main_arg1 (((cfg1.win 0).blk t).view.emb (ix2 (j 0 : Fin 8000) k))
      = V c main_arg1 (ix2 ((((cfg1.win 3).blk t).view.emb j) 0 : Fin 640000) k)
    refine congrArg (V c main_arg1) (funext fun a => Fin.ext ?_)
    match a with
    | ⟨0, _⟩ =>
      show win1_0.index t (0 : Fin 2) * 8000 + 1 * (j 0).val = win1_3.index t (0 : Fin 2) * 8000 + 1 * (j 0).val
      omega
    | ⟨1, _⟩ =>
      show win1_0.index t (1 : Fin 2) * 128 + 1 * k.val = k.val
      omega

/-- An index of the array lies in point t's band iff each coordinate lies in the band's range on its axis. -/
theorem mem_blk (t : Fin cfg1.N) (i : S640000x128.Idx) :
    i ∈ ((cfg1.win 3).blk t).view.set ↔ ∀ a : Fin 2, win1_3.index t a * S8000x128.size a ≤ (i a).val
      ∧ (i a).val < win1_3.index t a * S8000x128.size a + S8000x128.size a := by
  show i ∈ ((View.whole main_v26).slice (win1_3.rect t)).set ↔ _
  rw [View.set_slice_whole, Rect.mem_set_unit]
  exact Iff.rfl

/-- The bands tile the array: row r lies in band r / 8000. -/
theorem cover (i : S640000x128.Idx) :
    ∃ t : Fin cfg1.N, (cfg1.win 3).flush t = true ∧ i ∈ ((cfg1.win 3).blk t).view.set := by
  have hi0 : (i 0).val < 640000 := (i 0).isLt
  have hi1 : (i 1).val < 128 := (i 1).isLt
  have hN : (i 0).val / 8000 < cfg1.N := by
    show (i 0).val / 8000 < grid1.N
    rw [N_1]; omega
  obtain ⟨-, -, -, -, -, -, e30, e31⟩ := idx_facts ⟨(i 0).val / 8000, hN⟩
  have e30' : win1_3.index ⟨(i 0).val / 8000, hN⟩ (0 : Fin 2) = (i 0).val / 8000 := e30
  refine ⟨⟨(i 0).val / 8000, hN⟩, flush1_3 _, ?_⟩
  rw [mem_blk]
  intro a
  match a with
  | ⟨0, _⟩ =>
    show win1_3.index ⟨(i 0).val / 8000, hN⟩ (0 : Fin 2) * 8000 ≤ (i 0).val
      ∧ (i 0).val < win1_3.index ⟨(i 0).val / 8000, hN⟩ (0 : Fin 2) * 8000 + 8000
    omega
  | ⟨1, _⟩ =>
    show win1_3.index ⟨(i 0).val / 8000, hN⟩ (1 : Fin 2) * 128 ≤ (i 1).val
      ∧ (i 1).val < win1_3.index ⟨(i 0).val / 8000, hN⟩ (1 : Fin 2) * 128 + 128
    omega

/-- The result array after the region: the edge projection of the contents the region was entered with. -/
theorem final (c : Dev nD) : (dat1 V c).arrAt 3 cfg1.N = whole V c :=
  (dat1 V c).arrAt_eq_of_cover 3 (whole V c) (fun t _ => flushed_eq V c t) (cover)

end Cert.KernelIdeal.EdgeRegion

end
-- ==== Proof.Boundary.lean ====
/-
  What the buffers hold at the segment boundaries of the kernel's @main, read back to the launch memory, at the ideal
  instance.

  Before the node-projection region the host has computed the two aggregated message tables: for each edge the row of
  node_embs its gather index names (a negative index counted from the end) minus the edge's row, summed into the row its
  scatter index names, from a table of zeros.  The forward table gathers by src and scatters by dst, the reverse table
  gathers by dst and scatters by src: one function `agg` with the two index arrays exchanged.  The bias vectors are recast
  as one-row matrices; nothing else the regions read is written.  Each result buffer ends at what its region leaves.
-/
import proofs.«114788_j48103633715705_1_alg».proof.Proof.Gen.KernelIdeal.Frame
import Idealize.ShloMosaic.Lib.StableHlo.Run
import Idealize.ShloMosaic.PureOps.Ideal

set_option maxRecDepth 16384

noncomputable section

namespace Cert.KernelIdeal.Boundary

open Cert.KernelIdeal Cert.KernelIdeal.Gen
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg)

/-- The messages of all edges summed at their targets: row s[e] of the result collects x0[g[e]] - x1[e] over the edges e,
    a negative gather index counted from the end of the table. -/
def agg (x0 : (⟨S40000x128, .f32⟩ : BufTy).Contents (Elt Ideal)) (x1 : (⟨S640000x128, .f32⟩ : BufTy).Contents (Elt Ideal))
    (g s : (⟨S640000, .i32⟩ : BufTy).Contents (Elt Ideal)) : (⟨S40000x128, .f32⟩ : BufTy).Contents (Elt Ideal) :=
  Host.scatterAdd scatter_S40000x128_S640000x1_S640000x128_1_0_0_1
    (broadcastInDim S40000x128 ![] bcast_S_S40000x128 (constant (F := Ideal) S_ .f32 0x00000000#32))
    (broadcastInDim S640000x1 ![0] bcast_S640000_S640000x1_0 s)
    (subf (Host.gather gather_S40000x128_S640000x1_S640000x128_1_0_n_n_0_1_1128 x0
      (broadcastInDim S640000x1 ![0] bcast_S640000_S640000x1_0
        (select (cmpi .slt g (broadcastInDim S640000 ![] bcast_S_S640000 (constantI S_ 32 0#32)))
          (addi g (broadcastInDim S640000 ![] bcast_S_S640000 (constantI S_ 32 40000#32))) g))) x1)

/-- A buffer no operation of a host stretch writes keeps its contents. -/
local macro "unwritten" : tactic =>
  `(tactic| (refine StableHlo.after_of_forall_not_mem _ _ (List.forall_iff_forall_mem.mp ?_)
             simp only [hostOps0, hostOps1, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

/-! ## The node-projection region's entry contents -/

theorem in0_v10 (c : Dev nD) : V1 m ρ c main_v10
    = agg (m ((c : Thread nD τ).loc main_arg0)) (m ((c : Thread nD τ).loc main_arg1))
        (m ((c : Thread nD τ).loc main_arg2)) (m ((c : Thread nD τ).loc main_arg3)) := by
  show StableHlo.after hostOps0 (W0 m ρ c) (Proc.devRef .tc main_v10) = _
  dsimp only [hostOps0]
  after_results_simp
  rfl

theorem in0_v21 (c : Dev nD) : V1 m ρ c main_v21
    = agg (m ((c : Thread nD τ).loc main_arg0)) (m ((c : Thread nD τ).loc main_arg1))
        (m ((c : Thread nD τ).loc main_arg3)) (m ((c : Thread nD τ).loc main_arg2)) := by
  show StableHlo.after hostOps0 (W0 m ρ c) (Proc.devRef .tc main_v21) = _
  dsimp only [hostOps0]
  after_results_simp
  rfl

theorem in0_v22 (c : Dev nD) : V1 m ρ c main_v22
    = shapeCast S1x128 (m ((c : Thread nD τ).loc main_arg5)) shapeCasts_S128_S1x128 := by
  show StableHlo.after hostOps0 (W0 m ρ c) (Proc.devRef .tc main_v22) = _
  dsimp only [hostOps0]
  after_results_simp
  rfl

theorem in0_v23 (c : Dev nD) : V1 m ρ c main_v23
    = shapeCast S1x128 (m ((c : Thread nD τ).loc main_arg7)) shapeCasts_S128_S1x128 := by
  show StableHlo.after hostOps0 (W0 m ρ c) (Proc.devRef .tc main_v23) = _
  dsimp only [hostOps0]
  after_results_simp
  rfl

theorem in0_arg4 (c : Dev nD) : V1 m ρ c main_arg4 = m ((c : Thread nD τ).loc main_arg4) := by
  show StableHlo.after hostOps0 (W0 m ρ c) (Proc.devRef .tc main_arg4) = W0 m ρ c (Proc.devRef .tc main_arg4)
  unwritten

theorem in0_arg6 (c : Dev nD) : V1 m ρ c main_arg6 = m ((c : Thread nD τ).loc main_arg6) := by
  show StableHlo.after hostOps0 (W0 m ρ c) (Proc.devRef .tc main_arg6) = W0 m ρ c (Proc.devRef .tc main_arg6)
  unwritten

/-! ## The edge-projection region's entry contents -/

/-- An argument the first region does not hold and no host operation writes is, at the second region's entry, as launched. -/
theorem in1_arg1 (c : Dev nD) : V3 m ρ c main_arg1 = m ((c : Thread nD τ).loc main_arg1) :=
  calc W3 m ρ c (Proc.devRef .tc main_arg1)
    _ = W2 m ρ c (Proc.devRef .tc main_arg1) := by
          show StableHlo.after hostOps1 (W2 m ρ c) (Proc.devRef .tc main_arg1) = _
          unwritten
    _ = W1 m ρ c (Proc.devRef .tc main_arg1) := W2_of_ne m ρ c main_arg1 (by decide)
    _ = W0 m ρ c (Proc.devRef .tc main_arg1) := by
          show StableHlo.after hostOps0 (W0 m ρ c) (Proc.devRef .tc main_arg1) = _
          unwritten
    _ = m ((c : Thread nD τ).loc main_arg1) := rfl

theorem in1_arg8 (c : Dev nD) : V3 m ρ c main_arg8 = m ((c : Thread nD τ).loc main_arg8) :=
  calc W3 m ρ c (Proc.devRef .tc main_arg8)
    _ = W2 m ρ c (Proc.devRef .tc main_arg8) := by
          show StableHlo.after hostOps1 (W2 m ρ c) (Proc.devRef .tc main_arg8) = _
          unwritten
    _ = W1 m ρ c (Proc.devRef .tc main_arg8) := W2_of_ne m ρ c main_arg8 (by decide)
    _ = W0 m ρ c (Proc.devRef .tc main_arg8) := by
          show StableHlo.after hostOps0 (W0 m ρ c) (Proc.devRef .tc main_arg8) = _
          unwritten
    _ = m ((c : Thread nD τ).loc main_arg8) := rfl

theorem mid_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := by
          show StableHlo.after hostOps0 (W0 m ρ c) (Proc.devRef .tc main_arg9) = _
          unwritten
    _ = m ((c : Thread nD τ).loc main_arg9) := rfl

theorem in1_v25 (c : Dev nD) : V3 m ρ c main_v25
    = shapeCast S1x128 (m ((c : Thread nD τ).loc main_arg9)) shapeCasts_S128_S1x128 := by
  rw [← mid_arg9 m ρ c]
  show StableHlo.after hostOps1 (W2 m ρ c) (Proc.devRef .tc main_v25) = _
  dsimp only [hostOps1]
  after_results
  rfl

/-! ## The result buffers at the return -/

/-- The node projection's buffer is not touched after its region. -/
theorem out_v24 (c : Dev nD) : W4 m ρ c (Proc.devRef .tc main_v24) = (dat0 (V1 m ρ) c).arrAt 6 cfg0.N :=
  calc W4 m ρ c (Proc.devRef .tc main_v24)
    _ = W3 m ρ c (Proc.devRef .tc main_v24) := W4_of_ne m ρ c main_v24 (by decide)
    _ = W2 m ρ c (Proc.devRef .tc main_v24) := by
          show StableHlo.after hostOps1 (W2 m ρ c) (Proc.devRef .tc main_v24) = _
          unwritten
    _ = (dat0 (V1 m ρ) c).arrAt 6 cfg0.N := W2_arr m ρ c 6

theorem out_v26 (c : Dev nD) : W4 m ρ c (Proc.devRef .tc main_v26) = (dat1 (V3 m ρ) c).arrAt 3 cfg1.N :=
  W4_arr m ρ c 3

end Cert.KernelIdeal.Boundary

end
-- ==== Proof.KernelValue.lean ====
/-
  The kernel's run, with each result stated as one function of the launch memory, at the ideal instance.

  The node projection's buffer ends at what its region leaves: the node projection of the region's entry contents, which are
  the two aggregated message tables the host computed, the two weights as launched, and the two bias vectors recast as
  one-row matrices (whose one row is the vector again).  The edge projection's buffer ends at the edge projection of the edge
  table and the weight as launched and the third bias vector.
-/
import proofs.«114788_j48103633715705_1_alg».proof.Proof.KernelRun
import proofs.«114788_j48103633715705_1_alg».proof.Proof.RegionNode
import proofs.«114788_j48103633715705_1_alg».proof.Proof.RegionEdge
import proofs.«114788_j48103633715705_1_alg».proof.Proof.Boundary

set_option maxRecDepth 16384

noncomputable section

namespace Cert.KernelIdeal.KernelValue

open Cert.KernelIdeal Cert.KernelIdeal.Gen
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-- The node projection's buffer at the return. -/
theorem node_val (c : Dev nD) : W4 m ρ c (Proc.devRef .tc main_v24)
    = Cert.Proj.nodeProj (A := 40000)
        (Boundary.agg (m ((c.tc : Thread nD τ).loc main_arg0)) (m ((c.tc : Thread nD τ).loc main_arg1)) (m ((c.tc : Thread nD τ).loc main_arg2)) (m ((c.tc : Thread nD τ).loc main_arg3)))
        (Boundary.agg (m ((c.tc : Thread nD τ).loc main_arg0)) (m ((c.tc : Thread nD τ).loc main_arg1)) (m ((c.tc : Thread nD τ).loc main_arg3)) (m ((c.tc : Thread nD τ).loc main_arg2)))
        (m ((c.tc : Thread nD τ).loc main_arg4)) (m ((c.tc : Thread nD τ).loc main_arg6)) (m ((c.tc : Thread nD τ).loc main_arg5)) (m ((c.tc : Thread nD τ).loc main_arg7)) := by
  refine (Boundary.out_v24 m ρ c).trans ((NodeRegion.final (V1 m ρ) c).trans ?_)
  show Cert.Proj.nodeProj (A := 40000) (V1 m ρ c main_v10) (V1 m ρ c main_v21) (V1 m ρ c main_arg4) (V1 m ρ c main_arg6)
      (Cert.Proj.rowOf (V1 m ρ c main_v22)) (Cert.Proj.rowOf (V1 m ρ c main_v23)) = _
  rw [Boundary.in0_v10, Boundary.in0_v21, Boundary.in0_arg4, Boundary.in0_arg6, Boundary.in0_v22, Boundary.in0_v23,
    Cert.Proj.rowOf_shapeCast, Cert.Proj.rowOf_shapeCast]

/-- The edge projection's buffer at the return. -/
theorem edge_val (c : Dev nD) : W4 m ρ c (Proc.devRef .tc main_v26)
    = Cert.Proj.edgeProj (A := 640000) (m ((c.tc : Thread nD τ).loc main_arg1)) (m ((c.tc : Thread nD τ).loc main_arg8)) (m ((c.tc : Thread nD τ).loc main_arg9)) := by
  refine (Boundary.out_v26 m ρ c).trans ((EdgeRegion.final (V3 m ρ) c).trans ?_)
  show Cert.Proj.edgeProj (A := 640000) (V3 m ρ c main_arg1) (V3 m ρ c main_arg8) (Cert.Proj.rowOf (V3 m ρ c main_v25)) = _
  rw [Boundary.in1_arg1, Boundary.in1_arg8, Boundary.in1_v25, Cert.Proj.rowOf_shapeCast]

/-- The kernel's run: h is the node projection of the two aggregated tables, he the edge projection of the edge table, and
    the arguments end as launched. -/
theorem run : θ_run defs (onTc (τ := τ) (main (F := Ideal))) ⟨m, fun _ => 0, ρ⟩ fun r => ∀ c : Dev nD,
      r.2.mem ((c.tc : Thread nD τ).loc main_v24)
        = Cert.Proj.nodeProj (A := 40000)
            (Boundary.agg (m ((c.tc : Thread nD τ).loc main_arg0)) (m ((c.tc : Thread nD τ).loc main_arg1)) (m ((c.tc : Thread nD τ).loc main_arg2)) (m ((c.tc : Thread nD τ).loc main_arg3)))
            (Boundary.agg (m ((c.tc : Thread nD τ).loc main_arg0)) (m ((c.tc : Thread nD τ).loc main_arg1)) (m ((c.tc : Thread nD τ).loc main_arg3)) (m ((c.tc : Thread nD τ).loc main_arg2)))
            (m ((c.tc : Thread nD τ).loc main_arg4)) (m ((c.tc : Thread nD τ).loc main_arg6)) (m ((c.tc : Thread nD τ).loc main_arg5)) (m ((c.tc : Thread nD τ).loc main_arg7))
      ∧ r.2.mem ((c.tc : Thread nD τ).loc main_v26)
        = Cert.Proj.edgeProj (A := 640000) (m ((c.tc : Thread nD τ).loc main_arg1)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono
    (fun _ h c => ⟨(h c).1.trans (node_val m ρ c), (h c).2.1.trans (edge_val m ρ c), (h c).2.2⟩)
    (RunValue.run_results (F := Ideal) m ρ)

end Cert.KernelIdeal.KernelValue

end
-- ==== Proof.RefValue.lean ====
/-
  The reference's run, with each result stated as one function of the launch memory, at the ideal instance.

  The reference aggregates the messages exactly as the kernel's host part does (the same function `agg` of the node table,
  the edge table and the two index arrays, exchanged for the reverse direction), then forms
  h = ho·W_Oᵀ + b_O + hi·W_Iᵀ + b_I  and  he = e·W_relᵀ + b_rel  with dot_general and broadcast biases: the node and the edge
  projection of the specification, in the host's spelling.
-/
import proofs.«114788_j48103633715705_1_alg».proof.Proof.Gen.ReferenceIdeal.Run
import proofs.«114788_j48103633715705_1_alg».proof.Proof.Spec

set_option maxRecDepth 16384

noncomputable section

namespace Cert.ReferenceIdeal.RefValue

open Cert.ReferenceIdeal Cert.ReferenceIdeal.Gen
open Idealize.ShloMosaic Idealize.ShloMosaic.TcCoe Idealize.SL.Sem

/-- The messages of all edges summed at their targets: row s[e] of the result collects x0[g[e]] - x1[e] over the edges e,
    a negative gather index counted from the end of the table. -/
def agg (x0 : (⟨S40000x128, .f32⟩ : BufTy).Contents (Elt Ideal)) (x1 : (⟨S640000x128, .f32⟩ : BufTy).Contents (Elt Ideal))
    (g s : (⟨S640000, .i32⟩ : BufTy).Contents (Elt Ideal)) : (⟨S40000x128, .f32⟩ : BufTy).Contents (Elt Ideal) :=
  Host.scatterAdd scatter_S40000x128_S640000x1_S640000x128_1_0_0_1
    (broadcastInDim S40000x128 ![] bcast_S_S40000x128 (constant (F := Ideal) S_ .f32 0x00000000#32))
    (broadcastInDim S640000x1 ![0] bcast_S640000_S640000x1_0 s)
    (subf (Host.gather gather_S40000x128_S640000x1_S640000x128_1_0_n_n_0_1_1128 x0
      (broadcastInDim S640000x1 ![0] bcast_S640000_S640000x1_0
        (select (cmpi .slt g (broadcastInDim S640000 ![] bcast_S_S640000 (constantI S_ 32 0#32)))
          (addi g (broadcastInDim S640000 ![] bcast_S_S640000 (constantI S_ 32 40000#32))) g))) x1)

/-- product, bias, product, bias over the 40000 rows: the node projection. -/
theorem node_eq (ho hi : FVec Ideal S40000x128 .f32) (x4 x6 : FVec Ideal S128x128 .f32) (x5 x7 : FVec Ideal S128 .f32) :
    addf (F := Ideal) (addf (addf
          (Host.dotGeneral dot_S40000x128_S128x128_S40000x128_1_0_0_1_n_n none ho
            (transpose S128x128 [1, 0] x4 transposes_S128x128_S128x128_1_0))
          (broadcastInDim S40000x128 ![0, 1] bcast_S1x128_S40000x128_0_1 (broadcastInDim S1x128 ![1] bcast_S128_S1x128_1 x5)))
        (Host.dotGeneral dot_S40000x128_S128x128_S40000x128_1_0_0_1_n_n none hi
          (transpose S128x128 [1, 0] x6 transposes_S128x128_S128x128_1_0)))
      (broadcastInDim S40000x128 ![0, 1] bcast_S1x128_S40000x128_0_1 (broadcastInDim S1x128 ![1] bcast_S128_S1x128_1 x7))
    = Cert.Proj.nodeProj (A := 40000) ho hi x4 x6 x5 x7 :=
  Cert.Proj.host_node (A := 40000) ho hi x4 x6 x5 x7 _ _ _ none

/-- product plus bias over the 640000 rows: the edge projection. -/
theorem edge_eq (x1 : FVec Ideal S640000x128 .f32) (x8 : FVec Ideal S128x128 .f32) (x9 : FVec Ideal S128 .f32) :
    addf (F := Ideal) (Host.dotGeneral dot_S640000x128_S128x128_S640000x128_1_0_0_1_n_n none x1
          (transpose S128x128 [1, 0] x8 transposes_S128x128_S128x128_1_0))
      (broadcastInDim S640000x128 ![0, 1] bcast_S1x128_S640000x128_0_1 (broadcastInDim S1x128 ![1] bcast_S128_S1x128_1 x9))
    = Cert.Proj.edgeProj (A := 640000) x1 x8 x9 :=
  Cert.Proj.host_edge (A := 640000) x1 x8 x9 _ _ _ none

variable (m : (ℓ : Loc nD τ sig) → Buf (Elt Ideal) ℓ) (ρ : Dev nD → PrngReg)

/-- The reference's run: h is the node projection of the two aggregated tables, he the edge projection of the edge table,
    and the arguments end as launched. -/
theorem run : θ_run defs (onTc (τ := τ) (main (F := Ideal))) ⟨m, fun _ => 0, ρ⟩ fun r => ∀ c : Dev nD,
      r.2.mem ((c.tc : Thread nD τ).loc main_v32)
        = Cert.Proj.nodeProj (A := 40000)
            (agg (m ((c.tc : Thread nD τ).loc main_arg0)) (m ((c.tc : Thread nD τ).loc main_arg1))
              (m ((c.tc : Thread nD τ).loc main_arg2)) (m ((c.tc : Thread nD τ).loc main_arg3)))
            (agg (m ((c.tc : Thread nD τ).loc main_arg0)) (m ((c.tc : Thread nD τ).loc main_arg1))
              (m ((c.tc : Thread nD τ).loc main_arg3)) (m ((c.tc : Thread nD τ).loc main_arg2)))
            (m ((c.tc : Thread nD τ).loc main_arg4)) (m ((c.tc : Thread nD τ).loc main_arg6))
            (m ((c.tc : Thread nD τ).loc main_arg5)) (m ((c.tc : Thread nD τ).loc main_arg7))
      ∧ r.2.mem ((c.tc : Thread nD τ).loc main_v37)
        = Cert.Proj.edgeProj (A := 640000) (m ((c.tc : Thread nD τ).loc main_arg1))
            (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (node_eq _ _ _ _ _ _), (h c).2.1.trans (edge_eq _ _ _), (h c).2.2⟩)
    (Cert.ReferenceIdeal.Value.run (F := Ideal) m ρ)

end Cert.ReferenceIdeal.RefValue

end
-- ==== Proof.Bridge.lean ====
/-
  The kernel's host part and the reference aggregate the messages by the same function: the same operations with the same
  dimension numbers over the same shapes, written once in each program's vocabulary.
-/
import proofs.«114788_j48103633715705_1_alg».proof.Proof.Boundary
import proofs.«114788_j48103633715705_1_alg».proof.Proof.RefValue

noncomputable section

namespace Cert.Bridge

open Idealize.ShloMosaic

theorem agg_eq (x0 : (⟨Cert.KernelIdeal.S40000x128, .f32⟩ : BufTy).Contents (Elt Ideal))
    (x1 : (⟨Cert.KernelIdeal.S640000x128, .f32⟩ : BufTy).Contents (Elt Ideal))
    (g s : (⟨Cert.KernelIdeal.S640000, .i32⟩ : BufTy).Contents (Elt Ideal)) :
    Cert.KernelIdeal.Boundary.agg x0 x1 g s = Cert.ReferenceIdeal.RefValue.agg x0 x1 g s := rfl

end Cert.Bridge

end
-- ==== Proof.lean ====
/-
  A graph layer's two linear projections: the kernel against its reference, equal over the extended reals.

  Both programs first aggregate messages on the host in the same way: for each edge, the row of node_embs at one endpoint
  minus the edge's row, summed at the other endpoint, once per direction (ho, hi).  The kernel then runs two pipelined
  regions: the node projection  h = ho·W_Oᵀ + hi·W_Iᵀ + b_O + b_I  over 10 bands of 4000 rows, and the edge projection
  he = e·W_relᵀ + b_rel  over 80 bands of 8000 rows, each with bf16-narrowed operands on the matrix unit.  The reference
  computes  h = ho·W_Oᵀ + b_O + hi·W_Iᵀ + b_I  and the same he by dot_general.  At the ideal values narrowing is the
  identity and a product is the plain sum over the contracted axis, so the two sides differ only in the order of four
  summands of h; addition of extended reals is commutative and associative, and no finiteness is used.

  The three frames are the generated ones (the reference's is its generated run with the results dropped); the ideal pass
  rewrote nothing, so there is nothing to preserve; the value claim puts the kernel's run and the reference's run side by
  side, both stated with the same two whole-array functions of the launch memory.
-/
import proofs.«114788_j48103633715705_1_alg».proof.Defs
import proofs.«114788_j48103633715705_1_alg».proof.Proof.Gen.Kernel
import proofs.«114788_j48103633715705_1_alg».proof.Proof.Gen.Kernel.Skeleton
import proofs.«114788_j48103633715705_1_alg».proof.Proof.Gen.Kernel.Launch
import proofs.«114788_j48103633715705_1_alg».proof.Proof.Gen.Kernel.Points
import proofs.«114788_j48103633715705_1_alg».proof.Proof.Gen.Kernel.Frame
import proofs.«114788_j48103633715705_1_alg».proof.Proof.Gen.KernelIdeal
import proofs.«114788_j48103633715705_1_alg».proof.Proof.Gen.KernelIdeal.Skeleton
import proofs.«114788_j48103633715705_1_alg».proof.Proof.Gen.KernelIdeal.Launch
import proofs.«114788_j48103633715705_1_alg».proof.Proof.Gen.KernelIdeal.Points
import proofs.«114788_j48103633715705_1_alg».proof.Proof.Gen.KernelIdeal.Frame
import proofs.«114788_j48103633715705_1_alg».proof.Proof.Gen.ReferenceIdeal
import proofs.«114788_j48103633715705_1_alg».proof.Proof.Gen.Pre_finite_inputs
import proofs.«114788_j48103633715705_1_alg».proof.Proof.Gen.ReferenceIdeal.Run
import proofs.«114788_j48103633715705_1_alg».proof.Proof.KernelValue
import proofs.«114788_j48103633715705_1_alg».proof.Proof.RefValue
import proofs.«114788_j48103633715705_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs and keeps its arguments: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealized kernel is the kernel's own text read at the ideal values: no rewrite to account for. -/
theorem preserves : Cert.preserves_Kernel_KernelIdeal := trivial

/-- From memories that agree on the arguments, both programs end with h the node projection of the two aggregated tables
    and he the edge projection of the edge table: the same functions of the same arguments. -/
theorem algebraic : Cert.algebraic_KernelIdeal_ReferenceIdeal := by
  intro m ρ m' ρ' _ hagree
  refine ⟨_, _, Cert.KernelIdeal.KernelValue.run m ρ, ?_⟩
  refine (θ_run Cert.ReferenceIdeal.defs _ _).mono (fun _ h c => ?_) (Cert.ReferenceIdeal.RefValue.run m' ρ')
  obtain ⟨h0, h1, hargs⟩ := h c
  obtain ⟨e0, e1, e2, e3, e4, e5, e6, e7, e8, e9⟩ := hagree c
  refine ⟨h0.trans ?_, h1.trans ?_, hargs⟩
  · rw [e0, e1, e2, e3, e4, e5, e6, e7, Cert.Bridge.agg_eq, Cert.Bridge.agg_eq]
  · rw [e1, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
